-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S1x10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x1, .f32⟩
  | .local _ .vmem, ⟨4, _⟩ => ⟨S400x10000, .f32⟩
  | .local _ .vmem, ⟨5, _⟩ => ⟨S400x10000, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  shapeCasts_S10000x128_S1x10000x128 : S10000x128.ShapeCasts S1x10000x128
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S_ : Shape := ⟨0, ![]⟩
abbrev S1x1x1 : Shape := ⟨3, ![1, 1, 1]⟩

abbrev nBuf : Space → Nat
  | .hbm => 17
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x10000x128, .f32⟩
  | .hbm, ⟨7, _⟩ => ⟨S1x1x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x1x1, .f32⟩
  | .hbm, ⟨14, _⟩ => ⟨S1x10000x128, .f32⟩
  | .hbm, ⟨15, _⟩ => ⟨S1x10000x128, .f32⟩
  | .hbm, ⟨16, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  bcast_S1_S1x1x1_2 : S1.BroadcastsInDim S1x1x1 (![2] : Fin 1 → Fin S1x1x1.rank)
  bcast_S1x1x1_S1x10000x128_0_1_2 : S1x1x1.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.KPieces.lean ====
/-
  What each run of the kernel body leaves behind, as values of what it loaded.

  The body has two runs. At the first grid point it recomputes the feature matrix from the two operands it loaded,
  stores it over the whole scratch, reads the scratch back, and stores the output block computed from that read-back.
  At every later point it stores nothing into the scratch and computes the output block from what the scratch already
  held. Each store covers its whole buffer and each load reads a whole buffer, so the buffers end at the stored values.
-/
import proofs.«172838_g38981123178606_cont_sun_m_742_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A later point: the output block is the block value of the adjacency strip `x4`, the feature matrix `xs0` the
    scratch held, the bias row `x2` and the slope `x3`. -/
theorem out_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S1x1 .f32) (x4 : Vec F S400x10000 .f32) (xs0 : Vec F S10000x128 .f32) :
    out0_B_5 c i arg1 harg1 arg2 harg2 arg3 harg3 arg4 harg4 arg5 harg5 arg6 harg6 arg7 harg7 hc0 x0 x1 x2 x3 x4 xs0 = k0_pay2 x4 xs0 x2 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero hz]
  simp only [View.readAt_eq_ld, harg3.read_unread, harg4.read_unread, harg5.read_unread, harg7.read_unread,
    View.ld_unit_zero (S := S400x10000) hz, View.ld_unit_zero (S := S10000x128) hz, View.ld_unit_zero (S := S1x128) hz,
    View.ld_unit_zero (S := S1x1) hz]

/-- The first point leaves the feature value of the two operands `x0`, `x1` in the scratch. -/
theorem feats_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S1x1 .f32) (x4 : Vec F S400x10000 .f32) :
    sout0_A_0 c i arg1 harg1 arg2 harg2 arg3 harg3 arg4 harg4 arg5 harg5 arg6 harg6 arg7 harg7 hc0 x0 x1 x2 x3 x4 = k0_pay1 x0 x1 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread,
    View.ld_unit_zero (S := S10000x128) hz, View.ld_unit_zero (S := S128x128) hz]

/-- The first point's output block is the block value over that same feature value: the scratch is read back after
    the store that covered it. -/
theorem out_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S1x1 .f32) (x4 : Vec F S400x10000 .f32) :
    out0_A_5 c i arg1 harg1 arg2 harg2 arg3 harg3 arg4 harg4 arg5 harg5 arg6 harg6 arg7 harg7 hc0 x0 x1 x2 x3 x4 = k0_pay2 x4 (k0_pay1 x0 x1) x2 x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread, harg4.read_unread,
    harg5.read_unread, View.readCov_unit_zero (S := S10000x128) _ hz,
    View.ld_unit_zero (S := S400x10000) hz, View.ld_unit_zero (S := S10000x128) hz, View.ld_unit_zero (S := S128x128) hz,
    View.ld_unit_zero (S := S1x128) hz, View.ld_unit_zero (S := S1x1) hz]

end Cert.KernelIdeal.Pieces

end
-- ==== Proof.Spec.lean ====
/-
  The graph-convolution layer as one function of its five argument arrays, over the extended reals.

  With X = seq[0] (10000 × 128), A = adj[0] (10000 × 10000), W (128 × 128), a bias row b (128) and one slope s:

      feat n o   = ∑ d, X n d · W o d                 (the features X · Wᵀ)
      pre  i o   = (∑ k, A i k · feat k o) + b o      (the aggregation A · (X · Wᵀ) plus the bias)
      layer i o  = pre i o        if pre i o > 0
                 = s · pre i o    otherwise           (the parametric rectifier)

  It is stated twice: over the arrays in the rank-3 shapes the arguments arrive in (`layer3`), and over the rank-2
  arrays a leading unit axis has been dropped from (`layer2`). `layer2_cast` says they agree when the rank-2 arrays
  are the row-major re-readings of the rank-3 ones. No law of the extended reals is used: both programs form exactly
  these sums in exactly this grouping, so nothing here asks whether an entry is finite.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Layer

open Idealize.ShloMosaic Idealize.ShloMosaic.ValueIdx

/-- The rectifier with slope `s` on the non-positive side: `x` where `x > 0`, else `s · x`; the comparison is the
    ordered one of the extended reals against the word of `+0.0`. -/
def rect (s x : EReal) : EReal :=
  Scalar.select (FloatOps.cmpf (F := Ideal) (φ := .f32) .ogt x (Ideal.ofBits .f32 0x00000000#32)) x (s * x)

/-! ## Over rank-2 arrays -/

/-- Row `n` of the features `X · Wᵀ` at column `o`. -/
def feat2 (X : (⟨2, ![10000, 128]⟩ : Shape).Idx → EReal) (W : (⟨2, ![128, 128]⟩ : Shape).Idx → EReal)
    (n : Fin 10000) (o : Fin 128) : EReal :=
  ∑ d : Fin 128, X (ix2 n d) * W (ix2 o d)

/-- Row `i` of `A · F + b` at column `o`, for any feature matrix `F`. -/
def agg2 (A : (⟨2, ![10000, 10000]⟩ : Shape).Idx → EReal) (Fm : (⟨2, ![10000, 128]⟩ : Shape).Idx → EReal)
    (b : (⟨2, ![1, 128]⟩ : Shape).Idx → EReal) (i : Fin 10000) (o : Fin 128) : EReal :=
  (∑ k : Fin 10000, A (ix2 i k) * Fm (ix2 k o)) + b (ix2 (0 : Fin 1) o)

/-- The layer over rank-2 arrays. -/
def layer2 (X : (⟨2, ![10000, 128]⟩ : Shape).Idx → EReal) (A : (⟨2, ![10000, 10000]⟩ : Shape).Idx → EReal)
    (W : (⟨2, ![128, 128]⟩ : Shape).Idx → EReal) (b : (⟨2, ![1, 128]⟩ : Shape).Idx → EReal)
    (s : (⟨2, ![1, 1]⟩ : Shape).Idx → EReal) (i : Fin 10000) (o : Fin 128) : EReal :=
  rect (s (ix2 (0 : Fin 1) (0 : Fin 1))) (agg2 A (fun j => feat2 X W (j 0) (j 1)) b i o)

/-! ## Over the arguments' own shapes -/

/-- The features from the rank-3 `seq`. -/
def feat3 (X : (⟨3, ![1, 10000, 128]⟩ : Shape).Idx → EReal) (W : (⟨2, ![128, 128]⟩ : Shape).Idx → EReal)
    (n : Fin 10000) (o : Fin 128) : EReal :=
  ∑ d : Fin 128, X (ix3 (0 : Fin 1) n d) * W (ix2 o d)

/-- The layer over the arguments as they arrive. -/
def layer3 (X : (⟨3, ![1, 10000, 128]⟩ : Shape).Idx → EReal) (A : (⟨3, ![1, 10000, 10000]⟩ : Shape).Idx → EReal)
    (W : (⟨2, ![128, 128]⟩ : Shape).Idx → EReal) (b : (⟨1, ![128]⟩ : Shape).Idx → EReal)
    (s : (⟨1, ![1]⟩ : Shape).Idx → EReal) (i : Fin 10000) (o : Fin 128) : EReal :=
  rect (s (ix1 (0 : Fin 1))) ((∑ k : Fin 10000, A (ix3 (0 : Fin 1) i k) * feat3 X W k o) + b (ix1 o))

/-- The rank-2 layer of the re-read arrays is the rank-3 layer: each re-reading drops (or, for the bias and the slope,
    adds) a leading unit axis, which moves no element. -/
theorem layer2_cast (X : (⟨3, ![1, 10000, 128]⟩ : Shape).Idx → EReal) (A : (⟨3, ![1, 10000, 10000]⟩ : Shape).Idx → EReal)
    (W : (⟨2, ![128, 128]⟩ : Shape).Idx → EReal) (b : (⟨1, ![128]⟩ : Shape).Idx → EReal) (s : (⟨1, ![1]⟩ : Shape).Idx → EReal)
    (hX : (⟨3, ![1, 10000, 128]⟩ : Shape).ShapeCasts ⟨2, ![10000, 128]⟩)
    (hA : (⟨3, ![1, 10000, 10000]⟩ : Shape).ShapeCasts ⟨2, ![10000, 10000]⟩)
    (hb : (⟨1, ![128]⟩ : Shape).ShapeCasts ⟨2, ![1, 128]⟩) (hs : (⟨1, ![1]⟩ : Shape).ShapeCasts ⟨2, ![1, 1]⟩)
    (i : Fin 10000) (o : Fin 128) :
    layer2 (shapeCast ⟨2, ![10000, 128]⟩ X hX) (shapeCast ⟨2, ![10000, 10000]⟩ A hA) W
        (shapeCast ⟨2, ![1, 128]⟩ b hb) (shapeCast ⟨2, ![1, 1]⟩ s hs) i o
      = layer3 X A W b s i o := by
  unfold layer2 layer3 agg2 feat2 feat3
  simp only [shapeCast_1ab_ab_apply, shapeCast_a_1a_apply]

end Cert.Layer

end
-- ==== Proof.KPayload.lean ====
/-
  The two stored values of the kernel body, read at an index over the extended reals.

  The body stores twice. At the first grid point only, it stores the feature matrix X · Wᵀ into its scratch: entry
  (n, o) is ∑ d, X n d · W o d, a matrix product into a zero accumulator with both operands contracted along their
  second axis. At every point it stores its output block: for the 400-row strip `S` of the adjacency it was handed and
  whatever feature matrix `Fm` the scratch holds, entry (r, o) is the rectifier of (∑ k, S r k · Fm k o) + b 0 o, the
  bias row broadcast down the strip and the slope read from a 1 × 1 array. Casts between equal shapes are the identity.
-/
import proofs.«172838_g38981123178606_cont_sun_m_742_2_alg».proof.Proof.Gen.KernelIdeal.Skeleton
import proofs.«172838_g38981123178606_cont_sun_m_742_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Layer

/-! ## The feature product: which entries of its operands an output entry multiplies -/

theorem lhs_feat_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_feat_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_feat_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_feat_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The stored features at (n, o): the sum over the shared axis of row `n` of the left operand against row `o` of the
    right one. -/
theorem feat_apply (x0 : Vec Ideal S10000x128 .f32) (x1 : Vec Ideal S128x128 .f32) (n : Fin 10000) (o : Fin 128) :
    k0_pay1 (F := Ideal) x0 x1 (ix2 n o) = feat2 x0 x1 n o := by
  unfold k0_pay1 feat2
  simp only [shapeCast_self, matmul]
  rw [Ideal.matmul_constant_zero_apply, ← Equiv.sum_comp (ValueIdx.contrEquiv1 dot_S10000x128_S128x128_S10000x128_1_1_0_0_n_n 128 rfl rfl).symm]
  refine Finset.sum_congr rfl fun k _ => ?_
  have hk := ValueIdx.contrEquiv1_symm_val dot_S10000x128_S128x128_S10000x128_1_1_0_0_n_n 128 rfl rfl k
  have el : dot_S10000x128_S128x128_S10000x128_1_1_0_0_n_n.lhsIdx (ix2 n o) ((ValueIdx.contrEquiv1 dot_S10000x128_S128x128_S10000x128_1_1_0_0_n_n 128 rfl rfl).symm k) = ix2 n k := funext fun a => Fin.ext (by
    match a with
    | ⟨0, _⟩ => exact lhs_feat_0 _ _
    | ⟨1, _⟩ => exact (lhs_feat_1 _ _).trans hk)
  have er : dot_S10000x128_S128x128_S10000x128_1_1_0_0_n_n.rhsIdx (ix2 n o) ((ValueIdx.contrEquiv1 dot_S10000x128_S128x128_S10000x128_1_1_0_0_n_n 128 rfl rfl).symm k) = ix2 o k := funext fun a => Fin.ext (by
    match a with
    | ⟨0, _⟩ => exact rhs_feat_0 _ _
    | ⟨1, _⟩ => exact (rhs_feat_1 _ _).trans hk)
  rw [el, er]

/-! ## The aggregation product -/

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The strip's product with the feature matrix at (r, o). -/
theorem agg_matmul_apply (x4 : Vec Ideal S400x10000 .f32) (x5 : Vec Ideal S10000x128 .f32) (r : Fin 400) (o : Fin 128) :
    matmul (F := Ideal) (φ₁ := .f32) (φ₂ := .f32) dot_S400x10000_S10000x128_S400x128_1_0_0_1_n_n none x4 x5 (constant S400x128 .f32 0x00000000#32) (ix2 r o)
      = ∑ k : Fin 10000, x4 (ix2 r k) * x5 (ix2 k o) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 r o) ((ValueIdx.contrEquiv1 dot_S400x10000_S10000x128_S400x128_1_0_0_1_n_n 10000 rfl rfl).symm k) = ix2 r k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 r o) ((ValueIdx.contrEquiv1 dot_S400x10000_S10000x128_S400x128_1_0_0_1_n_n 10000 rfl rfl).symm k) = ix2 k o := funext fun a => Fin.ext (by
    match a with
    | ⟨0, _⟩ => exact (rhs_agg_0 _ _).trans hk
    | ⟨1, _⟩ => exact rhs_agg_1 _ _)
  rw [el, er]

/-- The slope is the one entry of its 1 × 1 array. -/
theorem slope_apply (x3 : Vec Ideal S1x1 .f32) : extractAt ![0, 0] x3 inpos_S1x1_p0_0 = x3 (ix2 (0 : Fin 1) (0 : Fin 1)) := by
  unfold extractAt
  congr 1
  funext a
  match a with
  | ⟨0, _⟩ => rfl
  | ⟨1, _⟩ => rfl

/-- The stored output block at (r, o): the rectifier, with the slope `x3 0 0`, of row `r` of the strip against column
    `o` of the features plus the bias at `o`. -/
theorem block_apply (x4 : Vec Ideal S400x10000 .f32) (x5 : Vec Ideal S10000x128 .f32) (x2 : Vec Ideal S1x128 .f32)
    (x3 : Vec Ideal S1x1 .f32) (r : Fin 400) (o : Fin 128) :
    k0_pay2 (F := Ideal) x4 x5 x2 x3 (ix2 r o)
      = rect (x3 (ix2 (0 : Fin 1) (0 : Fin 1))) ((∑ k : Fin 10000, x4 (ix2 r k) * x5 (ix2 k o)) + x2 (ix2 (0 : Fin 1) o)) := by
  unfold k0_pay2 rect
  simp only [shapeCast_self, select_apply, cmpf_apply, mulf_apply, addf_apply, broadcast_apply, agg_matmul_apply,
    broadcastTo_1b_ab_apply]
  rw [slope_apply x3]
  rfl

end Cert.KernelIdeal.Payload

end
-- ==== Proof.KValue.lean ====
/-
  What the kernel's result array holds when the region ends, over the extended reals.

  The grid has 25 points; point t is handed rows 400·t … 400·t + 399 of the adjacency (all 10000 columns) and writes
  back rows 400·t … 400·t + 399 of the result; the other four operands are handed whole at every point. The scratch is
  filled at point 0 with the feature matrix of the whole `seq` and `W` and is never stored into again, so by induction
  on the point it holds that one matrix after every point. Hence every point's block is the block value of its strip
  against that matrix, and row 400·t + r of the result is the layer's row 400·t + r. The 25 blocks tile the result.
-/
import proofs.«172838_g38981123178606_cont_sun_m_742_2_alg».proof.Proof.Gen.KernelIdeal.Frame
import proofs.«172838_g38981123178606_cont_sun_m_742_2_alg».proof.Proof.KPieces
import proofs.«172838_g38981123178606_cont_sun_m_742_2_alg».proof.Proof.KPayload
import proofs.«172838_g38981123178606_cont_sun_m_742_2_alg».proof.Proof.Spec
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.Layer Cert.KernelIdeal.Pieces Cert.KernelIdeal.Payload

variable (m : (ℓ : Loc nD τ sig) → Buf (Elt Ideal) ℓ) (ρ : Dev nD → PrngReg)

/-! ## The five arrays as the region finds them -/

/-- `seq` with its unit axis dropped. -/
abbrev Xarr (c : Dev nD) : Vec Ideal S10000x128 .f32 := V m c main_v0
/-- `adj` with its unit axis dropped. -/
abbrev Aarr (c : Dev nD) : Vec Ideal S10000x10000 .f32 := V m c main_v1
/-- `W`. -/
abbrev Warr (c : Dev nD) : Vec Ideal S128x128 .f32 := V m c main_arg2
/-- The bias as one row. -/
abbrev Barr (c : Dev nD) : Vec Ideal S1x128 .f32 := V m c main_v2
/-- The slope as a 1 × 1 array. -/
abbrev Sarr (c : Dev nD) : Vec Ideal S1x1 .f32 := V m c main_v3

/-! ## The blocks the points are handed -/

/-- The printed index maps over the grid: the four whole operands stay at block (0, 0); the adjacency strip and the
    result block are at (t, 0). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem blk_X (c : Dev nD) (t : Fin cfg0.N) : (iblk m c 0 t : Vec Ideal S10000x128 .f32) = Xarr m c := by
  obtain ⟨e0, e1, -⟩ := idx_facts t
  funext j
  unfold iblk
  rw [View.read_apply]
  show V m c main_v0 _ = V m c main_v0 j
  congr 1
  funext a
  apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega

theorem blk_W (c : Dev nD) (t : Fin cfg0.N) : (iblk m c 1 t : Vec Ideal S128x128 .f32) = Warr m c := by
  obtain ⟨-, -, e0, e1, -⟩ := idx_facts t
  funext j
  unfold iblk
  rw [View.read_apply]
  show V m c main_arg2 _ = V m c main_arg2 j
  congr 1
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

theorem blk_B (c : Dev nD) (t : Fin cfg0.N) : (iblk m c 2 t : Vec Ideal S1x128 .f32) = Barr m c := by
  obtain ⟨-, -, -, -, e0, e1, -⟩ := idx_facts t
  funext j
  unfold iblk
  rw [View.read_apply]
  show V m c main_v2 _ = V m c main_v2 j
  congr 1
  funext a
  apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem blk_S (c : Dev nD) (t : Fin cfg0.N) : (iblk m c 3 t : Vec Ideal S1x1 .f32) = Sarr m c := by
  obtain ⟨-, -, -, -, -, -, e0, e1, -⟩ := idx_facts t
  funext j
  unfold iblk
  rw [View.read_apply]
  show V m c main_v3 _ = V m c main_v3 j
  congr 1
  funext a
  apply Fin.ext
  match a with
  | ⟨0, _⟩ => show win0_3.index t (0 : Fin 2) * 1 + 1 * (j 0).val = (j 0).val; omega
  | ⟨1, _⟩ => show win0_3.index t (1 : Fin 2) * 1 + 1 * (j 1).val = (j 1).val; omega

/-- Row `400·t + r` of the adjacency, as an index. -/
abbrev rowOf (t : Fin cfg0.N) (r : Fin 400) : Fin 10000 :=
  ⟨400 * t.val + r.val, by have := t.isLt; have hN : cfg0.N = 25 := N_0; have := r.isLt; omega⟩

/-- The adjacency strip point `t` is handed. -/
abbrev strip (c : Dev nD) (t : Fin cfg0.N) : Vec Ideal S400x10000 .f32 := iblk m c 4 t

/-- Point `t`'s adjacency strip at (r, k) is the adjacency at (400·t + r, k). -/
theorem blk_A (c : Dev nD) (t : Fin cfg0.N) (r : Fin 400) (k : Fin 10000) :
    strip m c t (ix2 r k) = Aarr m c (ix2 (rowOf t r) k) := by
  obtain ⟨-, -, -, -, -, -, -, -, e0, e1, -⟩ := idx_facts t
  unfold strip iblk
  rw [View.read_apply]
  show V m c main_v1 _ = V m c main_v1 _
  congr 1
  funext a
  apply Fin.ext
  match a with
  | ⟨0, _⟩ => show win0_4.index t (0 : Fin 2) * 400 + 1 * r.val = 400 * t.val + r.val; omega
  | ⟨1, _⟩ => show win0_4.index t (1 : Fin 2) * 10000 + 1 * k.val = k.val; omega

/-! ## The scratch after every point -/

/-- The feature matrix of the whole operands. -/
abbrev feats (c : Dev nD) : Vec Ideal S10000x128 .f32 := k0_pay1 (F := Ideal) (Xarr m c) (Warr m c)

/-- After every point the scratch holds the feature matrix: point 0 stores it, no later point stores there. -/
theorem scratch_eq (c : Dev nD) : ∀ (n : ℕ) (h : n < cfg0.N), (outsAt0 m c n h).2 = feats m c
  | 0, h => by
    rw [outsAt0_A m c ⟨0, h⟩ rfl]
    dsimp only
    refine (feats_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)).trans ?_
    rw [blk_X, blk_W]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- So every point leaves, in the result's staging buffer, the block value of its strip against that matrix. -/
theorem out_eq (c : Dev nD) (t : Fin cfg0.N) :
    (outsAt0 m c t.val t.isLt).1 = k0_pay2 (F := Ideal) (strip m c t) (feats m c) (Barr m c) (Sarr m c) := by
  by_cases h0 : t.val % 25 = 0
  · rw [outsAt0_A m c t h0]
    dsimp only
    refine (out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans ?_
    rw [blk_X, blk_W, blk_B, blk_S]
  · rw [outsAt0_B m c t h0]
    dsimp only
    refine (out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).trans ?_
    rw [scratch_eq, blk_B, blk_S]

/-! ## From the blocks to the array -/

/-- The result array: the layer of the five arrays, row by row. -/
def result2 (c : Dev nD) : S10000x128.Idx → EReal :=
  fun j => layer2 (Xarr m c) (Aarr m c) (Warr m c) (Barr m c) (Sarr m c) (j 0) (j 1)

/-- What point `t` writes back is block `t` of that array. -/
theorem flushed_eq (c : Dev nD) (t : Fin cfg0.N) :
    (dats m 0 c).flushed 5 t = ((cfg0.win 5).blk t).view.read (Elt Ideal) (result2 m c) := by
  show (cfg0.win 5).cut (grid0.coords t) ((dats m 0 c).after 5 t) = _
  rw [after0_5, out_eq]
  obtain ⟨-, -, -, -, -, -, -, -, -, -, e0, e1⟩ := idx_facts t
  funext y
  obtain ⟨r, o, rfl⟩ : ∃ (r : Fin 400) (o : Fin 128), y = ix2 r o := ⟨y 0, y 1, eq_ix2 y⟩
  rw [View.read_apply]
  have hemb : ((cfg0.win 5).blk t).view.emb (ix2 r o) = ix2 (rowOf t r) o := by
    funext a; apply Fin.ext
    match a with
    | ⟨0, _⟩ => show win0_5.index t (0 : Fin 2) * 400 + 1 * r.val = 400 * t.val + r.val; omega
    | ⟨1, _⟩ => show win0_5.index t (1 : Fin 2) * 128 + 1 * o.val = o.val; omega
  rw [hemb]
  show k0_pay2 (F := Ideal) (strip m c t) (feats m c) (Barr m c) (Sarr m c) (ix2 r o) = result2 m c (ix2 (rowOf t r) o)
  have hsum : (∑ k : Fin 10000, strip m c t (ix2 r k) * feats m c (ix2 k o))
      = ∑ k : Fin 10000, Aarr m c (ix2 (rowOf t r) k) * feat2 (Xarr m c) (Warr m c) k o :=
    Finset.sum_congr rfl fun k _ => by
      rw [blk_A]
      exact congrArg (Aarr m c (ix2 (rowOf t r) k) * ·) (feat_apply (Xarr m c) (Warr m c) k o)
  rw [block_apply, hsum]
  rfl

/-- An index of the array is in point `t`'s block iff each coordinate is in the block's range on its axis. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v4).slice (win0_5.rect t)).set ↔ _
  rw [View.set_slice_whole, Rect.mem_set_unit]
  exact Iff.rfl

/-- Every row belongs to the block of the point `row / 400`. -/
theorem cover (i : S10000x128.Idx) : ∃ t : Fin cfg0.N, (cfg0.win 5).flush t = true ∧ i ∈ ((cfg0.win 5).blk t).view.set := by
  have hN : cfg0.N = 25 := N_0
  have hi0 : (i 0).val < 10000 := (i 0).isLt
  have hi1 : (i 1).val < 128 := (i 1).isLt
  refine ⟨⟨(i 0).val / 400, by omega⟩, flush0_5 _, ?_⟩
  rw [mem_blk]
  obtain ⟨-, -, -, -, -, -, -, -, -, -, e0, e1⟩ := idx_facts ⟨(i 0).val / 400, by omega⟩
  intro a
  match a with
  | ⟨0, _⟩ => show win0_5.index _ (0 : Fin 2) * 400 ≤ (i 0).val ∧ (i 0).val < win0_5.index _ (0 : Fin 2) * 400 + 400; rw [e0]; dsimp only; omega
  | ⟨1, _⟩ => show win0_5.index _ (1 : Fin 2) * 128 ≤ (i 1).val ∧ (i 1).val < win0_5.index _ (1 : Fin 2) * 128 + 128; rw [e1]; omega

/-- The result array after the last point is the layer of the five arrays. -/
theorem final (c : Dev nD) : (dats m 0 c).arrAt 5 cfg0.N = result2 m c :=
  (dats m 0 c).arrAt_eq_of_cover 5 (result2 m c) (fun t _ => flushed_eq m c t) (cover)

end Cert.KernelIdeal.Region

end
-- ==== Proof.KRun.lean ====
/-
  The kernel's run, read: its result buffer ends at the layer of the five arguments.

  Before the region @main only re-reads four arguments in shapes without (or, for the bias and the slope, with) a
  leading unit axis; after it, it re-reads the region's result array with a leading unit axis. So the result buffer
  at (0, i, o) is the region's array at (i, o), which is the layer over the re-read arrays, which is the layer over
  the arguments themselves.
-/
import proofs.«172838_g38981123178606_cont_sun_m_742_2_alg».proof.Proof.KValue
import Idealize.ShloMosaic.Lib.StableHlo.Run
import Idealize.ShloMosaic.Lib.ValueLayout

set_option maxRecDepth 16384

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.Layer

variable (m : (ℓ : Loc nD τ sig) → Buf (Elt Ideal) ℓ) (ρ : Dev nD → PrngReg)

/-! ## The arrays the region finds are re-readings of the arguments -/

theorem Xarr_eq (c : Dev nD) :
    Xarr m c = shapeCast S10000x128 (m ((c.tc : Thread nD τ).loc main_arg0)) shapeCasts_S1x10000x128_S10000x128 := by
  show StableHlo.after hostOps0 (fun b => m (c, b)) (Proc.devRef .tc main_v0) = _
  after_results
  rfl

theorem Aarr_eq (c : Dev nD) :
    Aarr m c = shapeCast S10000x10000 (m ((c.tc : Thread nD τ).loc main_arg1)) shapeCasts_S1x10000x10000_S10000x10000 := by
  show StableHlo.after hostOps0 (fun b => m (c, b)) (Proc.devRef .tc main_v1) = _
  after_results
  rfl

theorem Warr_eq (c : Dev nD) : Warr m c = (m ((c.tc : Thread nD τ).loc main_arg2)) := V_main_arg2 m c

theorem Barr_eq (c : Dev nD) :
    Barr m c = shapeCast S1x128 (m ((c.tc : Thread nD τ).loc main_arg3)) shapeCasts_S128_S1x128 := by
  show StableHlo.after hostOps0 (fun b => m (c, b)) (Proc.devRef .tc main_v2) = _
  after_results
  rfl

theorem Sarr_eq (c : Dev nD) :
    Sarr m c = shapeCast S1x1 (m ((c.tc : Thread nD τ).loc main_arg4)) shapeCasts_S1_S1x1 := by
  show StableHlo.after hostOps0 (fun b => m (c, b)) (Proc.devRef .tc main_v3) = _
  after_results
  rfl

/-! ## The result buffer -/

/-- The layer of the arguments as an array of the result's shape. -/
def result3 (c : Dev nD) : S1x10000x128.Idx → EReal :=
  fun j => layer3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (j 1) (j 2)

/-- The line after the region re-reads the region's array with a leading unit axis. -/
theorem tail_eq (c : Dev nD) :
    Pipeline.afterTail₀ cfgs (dats m) 0 (V0 m) [hostOps1] c main_v5
      = shapeCast S1x10000x128 (result2 m c) shapeCasts_S10000x128_S1x10000x128 := by
  unfold Pipeline.afterTail₀
  show StableHlo.after hostOps1 _ (Proc.devRef .tc main_v5) = _
  after_results
  have hw := (Pipeline.withArrays_arr spec0 launch0.win.arr_inj c (V0 m c) (fun w => (dats m 0 c).arrAt w (cfgs 0).N) 5).trans (final m c)
  rw [← hw]
  rfl

/-- That re-reading is the layer of the arguments. -/
theorem cast_result (c : Dev nD) :
    shapeCast S1x10000x128 (result2 m c) shapeCasts_S10000x128_S1x10000x128 = result3 m c := by
  funext j
  obtain ⟨u, i, o, rfl⟩ : ∃ (u : Fin 1) (i : Fin 10000) (o : Fin 128), j = ix3 u i o := ⟨j 0, j 1, j 2, eq_ix3 j⟩
  rw [shapeCast_ab_1ab_apply]
  unfold result2 result3
  rw [Xarr_eq, Aarr_eq, Warr_eq, Barr_eq, Sarr_eq]
  exact layer2_cast _ _ _ _ _ _ _ _ _ i o

/-- Every weakly fair execution of the kernel's @main ends with the result buffer at the layer of the arguments and the
    arguments as they were. -/
theorem run : θ_run defs (onTc (τ := τ) (main (F := Ideal))) ⟨m, fun _ => 0, ρ⟩ fun r => ∀ c : Dev nD,
      r.2.mem ((c.tc : Thread nD τ).loc main_v5) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v5 (Pipeline.mem_restRefs_of main_v5 (by decide) (by decide))).trans (tail_eq m c)).trans (cast_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Region

end
-- ==== Proof.RefSide.lean ====
/-
  The reference's result, over the extended reals, is the layer of its five arguments.

  The reference forms seq · Wᵀ by one product contracting the last axis of each, multiplies the adjacency into it
  batch by batch (one batch), adds the bias broadcast along the last axis, and selects between that sum and the slope
  times it where the sum exceeds zero. Read at (0, i, o), operation by operation, that is the layer's entry (i, o).
-/
import proofs.«172838_g38981123178606_cont_sun_m_742_2_alg».proof.Proof.Gen.ReferenceIdeal.Run
import proofs.«172838_g38981123178606_cont_sun_m_742_2_alg».proof.Proof.Gen.ReferenceIdeal.Read
import proofs.«172838_g38981123178606_cont_sun_m_742_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Layer

/-- The layer as an array of the result's shape. -/
def result3 (x0 : S1x10000x128.Idx → EReal) (x1 : S1x10000x10000.Idx → EReal) (x2 : S128x128.Idx → EReal)
    (x3 : S128.Idx → EReal) (x4 : S1.Idx → EReal) : S1x10000x128.Idx → EReal :=
  fun j => layer3 x0 x1 x2 x3 x4 (j 1) (j 2)

/-- The sum before the rectifier, at (0, i, o): row `i` of the adjacency against column `o` of the features, plus the
    bias at `o`. -/
theorem pre_apply (x0 : S1x10000x128.Idx → EReal) (x1 : S1x10000x10000.Idx → EReal) (x2 : S128x128.Idx → EReal)
    (x3 : S128.Idx → EReal) (i : Fin 10000) (o : Fin 128) :
    val_main_v4 (F := Ideal) x0 x1 x2 x3 (ix3 (0 : Fin 1) i o)
      = (∑ k : Fin 10000, x1 (ix3 (0 : Fin 1) i k) * feat3 x0 x2 k o) + x3 (ix1 o) := by
  have e1 : ∀ k : Fin 10000, lidx_main_v1 (ix3 (0 : Fin 1) i o) k = ix3 (0 : Fin 1) i k := fun k =>
    funext fun a => Fin.ext (by match a with | ⟨0, _⟩ => rfl | ⟨1, _⟩ => rfl | ⟨2, _⟩ => rfl)
  have e2 : ∀ k : Fin 10000, ridx_main_v1 (ix3 (0 : Fin 1) i o) k = ix3 (0 : Fin 1) k o := fun k =>
    funext fun a => Fin.ext (by match a with | ⟨0, _⟩ => rfl | ⟨1, _⟩ => rfl | ⟨2, _⟩ => rfl)
  have e3 : ∀ (k : Fin 10000) (d : Fin 128), lidx_main_v0 (ix3 (0 : Fin 1) k o) d = ix3 (0 : Fin 1) k d := fun k d =>
    funext fun a => Fin.ext (by match a with | ⟨0, _⟩ => rfl | ⟨1, _⟩ => rfl | ⟨2, _⟩ => rfl)
  have e4 : ∀ (k : Fin 10000) (d : Fin 128), ridx_main_v0 (ix3 (0 : Fin 1) k o) d = ix2 o d := fun k d =>
    funext fun a => Fin.ext (by match a with | ⟨0, _⟩ => rfl | ⟨1, _⟩ => rfl)
  have e5 : idx_main_v2 (idx_main_v3 (ix3 (0 : Fin 1) i o)) = ix1 o :=
    funext fun a => Fin.ext (by match a with | ⟨0, _⟩ => rfl)
  rw [val_main_v4_apply, val_main_v1_apply, val_main_v3_apply, val_main_v2_apply, e5]
  unfold feat3
  simp only [e1, e2, val_main_v0_apply, e3, e4]
  rfl

/-- The reference's result at (0, i, o) is the layer's entry (i, o). -/
theorem result_apply (x0 : S1x10000x128.Idx → EReal) (x1 : S1x10000x10000.Idx → EReal) (x2 : S128x128.Idx → EReal)
    (x3 : S128.Idx → EReal) (x4 : S1.Idx → EReal) (i : Fin 10000) (o : Fin 128) :
    val_main_v10 (F := Ideal) x0 x1 x2 x3 x4 (ix3 (0 : Fin 1) i o) = layer3 x0 x1 x2 x3 x4 i o := by
  have e6 : idx_main_v7 (idx_main_v8 (ix3 (0 : Fin 1) i o)) = ix1 (0 : Fin 1) :=
    funext fun a => Fin.ext (by match a with | ⟨0, _⟩ => rfl)
  rw [val_main_v10_apply, val_main_v6_apply, val_main_v9_apply, val_main_v5_apply, val_main_cst_apply,
    val_main_v8_apply, val_main_v7_apply, e6, pre_apply]
  rfl

/-- So the reference's result array is the layer. -/
theorem result_eq (x0 : S1x10000x128.Idx → EReal) (x1 : S1x10000x10000.Idx → EReal) (x2 : S128x128.Idx → EReal)
    (x3 : S128.Idx → EReal) (x4 : S1.Idx → EReal) :
    val_main_v10 (F := Ideal) x0 x1 x2 x3 x4 = result3 x0 x1 x2 x3 x4 := by
  funext j
  obtain ⟨u, i, o, rfl⟩ : ∃ (u : Fin 1) (i : Fin 10000) (o : Fin 128), j = ix3 u i o := ⟨j 0, j 1, j 2, eq_ix3 j⟩
  obtain rfl : u = 0 := Subsingleton.elim _ _
  exact result_apply x0 x1 x2 x3 x4 i o

end Cert.ReferenceIdeal.RefValue

end
-- ==== Proof.lean ====
/-
  The certificate of a graph-convolution layer: out = rectifier(adj · (seq · Wᵀ) + bias), the rectifier's slope on the
  non-positive side an input.

  The kernel walks the 10000 rows of the adjacency in 25 strips of 400. At the first strip it forms the feature matrix
  seq · Wᵀ once, into a scratch that every later strip reads back; each strip multiplies its 400 × 10000 piece of the
  adjacency into that matrix, adds the bias row and applies the rectifier. The reference forms the same feature
  matrix, the same product with the whole adjacency, the same sum and the same selection. Over the extended reals both
  results are, entry by entry, the one function `Cert.Layer.layer3` of the five arguments — the same sums in the same
  grouping, so no law of the extended reals is needed and the inputs' finiteness is never used.

  The three frames are the programs' runs with the results dropped; the idealization rewrote nothing.
-/
import proofs.«172838_g38981123178606_cont_sun_m_742_2_alg».proof.Defs
import proofs.«172838_g38981123178606_cont_sun_m_742_2_alg».proof.Proof.Gen.Kernel
import proofs.«172838_g38981123178606_cont_sun_m_742_2_alg».proof.Proof.Gen.Kernel.Frame
import proofs.«172838_g38981123178606_cont_sun_m_742_2_alg».proof.Proof.Gen.KernelIdeal
import proofs.«172838_g38981123178606_cont_sun_m_742_2_alg».proof.Proof.Gen.KernelIdeal.Frame
import proofs.«172838_g38981123178606_cont_sun_m_742_2_alg».proof.Proof.Gen.ReferenceIdeal
import proofs.«172838_g38981123178606_cont_sun_m_742_2_alg».proof.Proof.Gen.ReferenceIdeal.Run
import proofs.«172838_g38981123178606_cont_sun_m_742_2_alg».proof.Proof.Gen.ReferenceIdeal.Read
import proofs.«172838_g38981123178606_cont_sun_m_742_2_alg».proof.Proof.Gen.Pre_finite_inputs
import proofs.«172838_g38981123178606_cont_sun_m_742_2_alg».proof.Proof.KRun
import proofs.«172838_g38981123178606_cont_sun_m_742_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with their result buffers at the layer of those
    arguments. -/
theorem algebraic : Cert.algebraic_KernelIdeal_ReferenceIdeal := by
  intro m ρ m' ρ' _ hagree
  refine ⟨fun c => Cert.KernelIdeal.Region.result3 m c, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
